-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S8192x4096, .f32⟩
  | .hbm, ⟨4, _⟩ => ⟨S8192x4096, .i1⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the body leaves behind, case by case, as the body's payloads.

  The body keeps a 512 × 1024 accumulator. In every case it loads the tile of `x`, the tile of the weights and the
  accumulator, and stores the update's payload of the three over the whole accumulator. At a first step of the
  contraction it has stored the reset's payload just before, so the accumulator it loads is that payload; at a last
  step it then copies the accumulator it has just stored, whole, into the output tile. Every load and store covers its
  whole buffer, so what a buffer ends holding is the last payload stored into it.
-/
import proofs.«105559_j59528246722736_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz : (![0, 0] : Fin 2 → Nat) = fun _ => 0 := funext fun a => by fin_cases a <;> rfl

/-- First step of the contraction: the accumulator ends at the update of the two tiles over the reset. -/
theorem acc_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : ¬cond0_1 i)
    (x0 : Vec F S512x1024 .f32) (x1 : Vec F S1024x1024 .f32) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg6.read_unread, View.ld_unit_zero (S := S512x1024) hz, View.ld_unit_zero (S := S1024x1024) hz, View.readCov_unit_zero (S := S512x1024) _ hz]

/-- A middle step: the accumulator ends at the update of the two tiles over what it held. -/
theorem acc_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : ¬cond0_1 i)
    (x0 : Vec F S512x1024 .f32) (x1 : Vec F S1024x1024 .f32) (xs0 : Vec F S512x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S512x1024) hz, View.ld_unit_zero (S := S1024x1024) hz, View.readCov_unit_zero (S := S512x1024) _ hz]

/-- The last step: the accumulator ends at the update over what it held, -/
theorem acc_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x1024 .f32) (x1 : Vec F S1024x1024 .f32) (xs0 : Vec F S512x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S512x1024) hz, View.ld_unit_zero (S := S1024x1024) hz, View.readCov_unit_zero (S := S512x1024) _ hz]

/-- and the output tile ends holding that same accumulator. -/
theorem out_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x1024 .f32) (x1 : Vec F S1024x1024 .f32) (xs0 : Vec F S512x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S512x1024) hz, View.ld_unit_zero (S := S1024x1024) hz, View.readCov_unit_zero (S := S512x1024) _ hz]

end Cert.KernelIdeal.Pieces

end
-- ==== Proof.Steps.lean ====
/-
  The accumulator, point by point, over the body's payloads.

  What the accumulator holds after the body at grid point `t`: at a first contraction step (`t % 4 = 0`) the update
  of the point's two tiles over the reset; at every other step the update of the point's two tiles over what the point
  before left. At a last step (`t % 4 = 3`) the output tile holds the same as the accumulator.
-/
import proofs.«105559_j59528246722736_1_alg».proof.Proof.Pieces

noncomputable section

namespace Cert.KernelIdeal.Steps

open Idealize.ShloMosaic Idealize.ShloMosaic.TcCoe Idealize.SL.Sem Cert.KernelIdeal Cert.KernelIdeal.Gen Cert.KernelIdeal.Pieces

variable {F : FTy → Type} [FloatOps F]
variable (m : (ℓ : Loc nD τ sig) → Buf (Elt F) ℓ)

/-- A first step: the update over the reset. -/
theorem acc_at_first (c : Dev nD) (t : Fin cfg0.N) (h0 : t.val % 4 = 0) (h1 : ¬t.val % 4 = 3) :
    (outsAt0 m c t.val t.isLt).2 = k0_pay2 (iblk m c 0 t) (iblk m c 1 t) k0_pay1 := by
  rw [outsAt0_A m c t h0 h1]
  dsimp only
  exact acc_first (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A middle step: the update over what the point before left. -/
theorem acc_at_middle (c : Dev nD) (t : Fin cfg0.N) (h0 : ¬t.val % 4 = 0) (h1 : ¬t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_B m c t h0 h1]
  dsimp only
  exact acc_middle (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- A last step: the same update, -/
theorem acc_at_last (c : Dev nD) (t : Fin cfg0.N) (h0 : ¬t.val % 4 = 0) (h1 : t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_C m c t h0 h1]
  dsimp only
  exact acc_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- and the output tile holds what the accumulator holds. -/
theorem out_at_last (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (out_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (acc_last (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

end Cert.KernelIdeal.Steps

end
-- ==== Proof.Blocks.lean ====
/-
  Where the tiles sit in the arrays.

  The grid is 16 × 4 × 4, points in row-major order: point `t` is row tile `t / 16`, column tile `t / 4 % 4`,
  contraction step `t % 4`. At point `t` the tile of `x` is rows `512·(t/16) …`, columns `1024·(t%4) …`; the tile of
  the weights is rows `1024·(t%4) …`, columns `1024·(t/4%4) …`; the output tile is rows `512·(t/16) …`, columns
  `1024·(t/4%4) …`. A tile's entry (p, q) is the array's entry at tile index × tile size + (p, q). The output tile is
  written back at the last contraction step only, and the 16 × 4 tiles written back cover the output array.
-/
import proofs.«105559_j59528246722736_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The three index maps at every point of the grid, decided. -/
theorem tile_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The arrays as the region finds them, and the two input tiles at a point, at their literal types. -/
abbrev xarr (c : Dev nD) : Vec F S8192x4096 .f32 := V m c main_arg0
abbrev warr (c : Dev nD) : Vec F S4096x4096 .f32 := V m c main_arg1
abbrev xtile (c : Dev nD) (t : Fin cfg0.N) : Vec F S512x1024 .f32 := iblk m c 0 t
abbrev wtile (c : Dev nD) (t : Fin cfg0.N) : Vec F S1024x1024 .f32 := iblk m c 1 t

/-- The tile of `x` at point `t`, entry (p, kk): the array at row `512·(t/16) + p`, column `1024·(t%4) + kk`. -/
theorem xtile_apply (c : Dev nD) (t : Fin cfg0.N) (p : Fin 512) (kk : Fin 1024) (r : Fin 8192) (κ : Fin 4096)
    (hr : r.val = 512 * (t.val / 16) + p.val) (hκ : κ.val = 1024 * (t.val % 4) + kk.val) :
    xtile m c t (ix2 p kk) = xarr m c (ix2 r κ) := by
  obtain ⟨e0, e1, -, -, -, -⟩ := tile_index t
  show ((cfg0.win 0).blk t).view.read (Elt F) (V m c (Pipeline.arrRef spec0 0)) (ix2 p kk) = _
  rw [View.read_apply]
  show V m c main_arg0 (((cfg0.win 0).blk t).view.emb (ix2 p kk)) = V m c main_arg0 (ix2 r κ)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 1024 + 1 * kk.val = κ.val; omega

/-- The tile of the weights at point `t`, entry (kk, q): the array at row `1024·(t%4) + kk`, column `1024·(t/4%4) + q`. -/
theorem wtile_apply (c : Dev nD) (t : Fin cfg0.N) (kk : Fin 1024) (q : Fin 1024) (κ : Fin 4096) (cc : Fin 4096)
    (hκ : κ.val = 1024 * (t.val % 4) + kk.val) (hc : cc.val = 1024 * (t.val / 4 % 4) + q.val) :
    wtile m c t (ix2 kk q) = warr m c (ix2 κ cc) := by
  obtain ⟨-, -, e0, e1, -, -⟩ := tile_index t
  show ((cfg0.win 1).blk t).view.read (Elt F) (V m c (Pipeline.arrRef spec0 1)) (ix2 kk q) = _
  rw [View.read_apply]
  show V m c main_arg1 (((cfg0.win 1).blk t).view.emb (ix2 kk q)) = V m c main_arg1 (ix2 κ cc)
  refine congrArg (V m c main_arg1) (funext fun a => Fin.ext ?_)
  match a with
  | ⟨0, _⟩ => show win0_1.index t (0 : Fin 2) * 1024 + 1 * kk.val = κ.val; omega
  | ⟨1, _⟩ => show win0_1.index t (1 : Fin 2) * 1024 + 1 * q.val = cc.val; omega

/-- The output tile's entry (p, q) at point `t` sits at row `512·(t/16) + p`, column `1024·(t/4%4) + q` of the output array. -/
theorem otile_emb (t : Fin cfg0.N) (p : Fin 512) (q : Fin 1024) (r : Fin 8192) (cc : Fin 4096)
    (hr : r.val = 512 * (t.val / 16) + p.val) (hc : cc.val = 1024 * (t.val / 4 % 4) + q.val) :
    ((cfg0.win 2).blk t).view.emb (ix2 p q) = (ix2 r cc : S8192x4096.Idx) := by
  obtain ⟨-, -, -, -, e0, e1⟩ := tile_index t
  refine funext fun a => Fin.ext ?_
  match a with
  | ⟨0, _⟩ => show win0_2.index t (0 : Fin 2) * 512 + 1 * p.val = r.val; omega
  | ⟨1, _⟩ => show win0_2.index t (1 : Fin 2) * 1024 + 1 * q.val = cc.val; omega

/-- An index of the output array is in point `t`'s tile iff each coordinate is in the tile's range on its axis. -/
theorem mem_otile (t : Fin cfg0.N) (i : S8192x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every index of the output array lies in the tile some last contraction step writes back: the step of row tile
    `i₀ / 512` and column tile `i₁ / 1024`. -/
theorem otiles_cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  let t : Fin cfg0.N := ⟨((i 0).val / 512 * 4 + (i 1).val / 1024) * 4 + 3, by omega⟩
  have ht : t.val = ((i 0).val / 512 * 4 + (i 1).val / 1024) * 4 + 3 := rfl
  obtain ⟨-, -, -, -, e0, e1⟩ := tile_index t
  refine ⟨t, (flush0_2 t).mpr (by omega), ?_⟩
  rw [mem_otile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

end Cert.KernelIdeal.Blocks

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Binarize.lean ====
/-
  Sign binarisation, one entry at a time.

  A number `x` of the extended reals is sent to the value of the word `1.0` when `x` is at least the value of the
  word `0.0`, and to the value of the word `-1.0` otherwise. A kernel spells this on a whole tile as a comparison
  with a splat zero, a select between two splats and a narrowing to a shorter float format (which changes nothing on
  the extended reals); a host program spells it with the three constants as rank-0 arrays laid over the whole shape.
  Read at an index, both are the one scalar function of the operand's entry there. The three words are never
  evaluated: the same words stand on both sides.
-/
import Idealize.ShloMosaic.Lib.ValueIdx
import Idealize.ShloMosaic.Lib.KernelVsHost

noncomputable section

namespace Cert.Binary

open Idealize.ShloMosaic Idealize.ShloMosaic.ValueIdx

/-- One number binarised: `1.0` where it is at least `0.0`, `-1.0` elsewhere (the three as their words). -/
def sgn (x : EReal) : EReal :=
  Scalar.select (FloatOps.cmpf (F := Ideal) (φ := .f32) .oge x (Scalar.ofBits (F := Ideal) .f32 0x00000000#32))
    (Scalar.ofBits (F := Ideal) .f32 0x3F800000#32) (Scalar.ofBits (F := Ideal) .f32 0xBF800000#32)

variable {s : Shape}

/-- A kernel's binarisation of a tile, narrowed to bf16, read at an index. -/
theorem kernel_sign_apply (x : FVec Ideal s .f32) (h : FTy.bits .bf16 < FTy.bits .f32) (i : s.Idx) :
    (truncf .bf16 (select (cmpf .oge x (broadcast s (Scalar.ofBits (F := Ideal) .f32 0x00000000#32)))
        (broadcast s (Scalar.ofBits (F := Ideal) .f32 0x3F800000#32))
        (broadcast s (Scalar.ofBits (F := Ideal) .f32 0xBF800000#32))) h : FVec Ideal s .bf16) i = sgn (x i) := rfl

/-- A host program's binarisation of an array, the constants rank-0 arrays laid over the shape, read at an index. -/
theorem host_sign_apply (x : FVec Ideal s .f32) (h0 : (⟨0, ![]⟩ : Shape).BroadcastsInDim s ![]) (i : s.Idx) :
    select (cmpf .oge x (broadcastInDim s ![] h0 (constant (F := Ideal) ⟨0, ![]⟩ .f32 0x00000000#32)))
        (broadcastInDim s ![] h0 (constant (F := Ideal) ⟨0, ![]⟩ .f32 0x3F800000#32))
        (broadcastInDim s ![] h0 (constant (F := Ideal) ⟨0, ![]⟩ .f32 0xBF800000#32)) i = sgn (x i) := by
  rw [broadcastInDim_constant, broadcastInDim_constant, broadcastInDim_constant]
  rfl

end Cert.Binary

end
-- ==== Proof.Payload.lean ====
/-
  What the body's two stores into the accumulator hold, entry by entry, on the extended reals.

  The reset stores zero everywhere. The update stores, at row `p` and column `q` of the 512 × 1024 tile,
  the accumulator's entry plus the product of the binarised 512 × 1024 tile of `x` with the binarised 1024 × 1024 tile of
  the weights: `acc (p, q) + ∑ kk < 1024, sgn (x (p, kk)) · sgn (w (kk, q))`. The product is accumulated into a zero
  array, so it is the plain sum over the contracted coordinate; the casts to the same shape are the identity.
-/
import proofs.«105559_j59528246722736_1_alg».proof.Proof.Gen.KernelIdeal.Skeleton
import proofs.«105559_j59528246722736_1_alg».proof.Proof.LibDense
import proofs.«105559_j59528246722736_1_alg».proof.Proof.Binarize
import Idealize.ShloMosaic.Lib.Pipeline.Value

noncomputable section

namespace Cert.KernelIdeal.Payload

open Idealize.ShloMosaic Idealize.ShloMosaic.ValueIdx Cert.KernelIdeal Cert.KernelIdeal.Gen Cert.Binary

/-- The tile product's dimension numbers are the rows-by-columns ones. -/
theorem dot_eq_plain : dot_S512x1024_S1024x1024_S512x1024_1_0_0_1_n_n = DotDims.plain 512 1024 1024 := rfl

/-- The reset's payload is zero at every entry. -/
theorem reset_apply (i : S512x1024.Idx) : k0_pay1 (F := Ideal) i = 0 := by
  unfold k0_pay1
  refine (congrFun (shapeCast_self _ _) i).trans ?_
  exact Ideal.ofBits_zero_f32

/-- A binarised tile product into zero, added to an accumulator and cast to its own shape, at (p, q). -/
theorem acc_add_product_apply {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (acc : FVec Ideal ⟨2, ![M, N]⟩ .f32) (hb : FTy.bits .bf16 < FTy.bits .f32)
    (hs : (⟨2, ![M, N]⟩ : Shape).ShapeCasts ⟨2, ![M, N]⟩) (p : Fin M) (q : Fin N) :
    shapeCast ⟨2, ![M, N]⟩ (addf acc (matmul d prec
        (truncf .bf16 (select (cmpf .oge x (broadcast ⟨2, ![M, K]⟩ (Scalar.ofBits (F := Ideal) .f32 0x00000000#32)))
          (broadcast ⟨2, ![M, K]⟩ (Scalar.ofBits (F := Ideal) .f32 0x3F800000#32))
          (broadcast ⟨2, ![M, K]⟩ (Scalar.ofBits (F := Ideal) .f32 0xBF800000#32))) hb)
        (truncf .bf16 (select (cmpf .oge w (broadcast ⟨2, ![K, N]⟩ (Scalar.ofBits (F := Ideal) .f32 0x00000000#32)))
          (broadcast ⟨2, ![K, N]⟩ (Scalar.ofBits (F := Ideal) .f32 0x3F800000#32))
          (broadcast ⟨2, ![K, N]⟩ (Scalar.ofBits (F := Ideal) .f32 0xBF800000#32))) hb)
        (constant (F := Ideal) ⟨2, ![M, N]⟩ .f32 0x00000000#32))) hs (ix2 p q)
      = acc (ix2 p q) + ∑ kk : Fin K, sgn (x (ix2 p kk)) * sgn (w (ix2 kk q)) := by
  subst hd
  rw [shapeCast_self]
  show acc (ix2 p q) + FloatOps.matmul (DotDims.plain M K N) prec _ _ (constant ⟨2, ![M, N]⟩ .f32 0x00000000#32) (ix2 p q) = _
  rw [Cert.LibDense.matmul_plain_zero_apply]
  rfl

/-- The update's payload at (p, q): the accumulator's entry plus the tile's sum of products of signs. -/
theorem update_apply (x : Vec Ideal S512x1024 .f32) (w : Vec Ideal S1024x1024 .f32) (acc : Vec Ideal S512x1024 .f32)
    (p : Fin 512) (q : Fin 1024) :
    k0_pay2 (F := Ideal) x w acc (ix2 p q) = acc (ix2 p q) + ∑ kk : Fin 1024, sgn (x (ix2 p kk)) * sgn (w (ix2 kk q)) := by
  unfold k0_pay2
  exact acc_add_product_apply _ dot_eq_plain none x w acc _ _ p q

end Cert.KernelIdeal.Payload

end
-- ==== Proof.PartialSum.lean ====
/-
  A sum taken block by block.

  For terms `f 0, f 1, …` in a commutative monoid, `psum f n` is the sum of the first `n` of them. The sum of the
  first `B·(k+1)` terms is the sum of the first `B·k` plus the `B` terms of block `k`; so an accumulator that starts
  at zero and adds one block's sum at a time holds, after block `k`, the sum of the first `B·(k+1)` terms, and after
  the last block the whole sum. Only associativity and commutativity of the addition are used, so the law holds on the
  extended reals whatever the terms are.
-/
import Mathlib.Algebra.BigOperators.Fin

namespace Cert.PartialSum

variable {M : Type*} [AddCommMonoid M]

/-- The sum of the first `n` terms. -/
def psum (f : ℕ → M) (n : ℕ) : M := ∑ κ ∈ Finset.range n, f κ

theorem psum_zero (f : ℕ → M) : psum f 0 = 0 := Finset.sum_range_zero f

/-- The first `B·(k+1)` terms are the first `B·k` and then block `k`. -/
theorem psum_block (f : ℕ → M) (B k : ℕ) :
    psum f (B * (k + 1)) = psum f (B * k) + ∑ j : Fin B, f (B * k + j.val) := by
  unfold psum
  rw [Nat.mul_succ, Finset.sum_range_add]
  exact congrArg (∑ κ ∈ Finset.range (B * k), f κ + ·) (Finset.sum_range fun x => f (B * k + x))

/-- The first block alone, over a zero start. -/
theorem psum_first (f : ℕ → M) (B : ℕ) : psum f (B * (0 + 1)) = 0 + ∑ j : Fin B, f (B * 0 + j.val) := by
  rw [psum_block, Nat.mul_zero, psum_zero]

/-- All `n` terms, as a sum over `Fin n`. -/
theorem psum_eq_sum (f : ℕ → M) (n : ℕ) : psum f n = ∑ κ : Fin n, f κ.val := Finset.sum_range f

end Cert.PartialSum
-- ==== Proof.Spec.lean ====
/-
  The binarised matrix product, as one function of the two argument arrays.

  For `X` of 8192 × 4096 and `W` of 4096 × 4096 numbers, entry (r, c) of the result is
  `∑ κ < 4096, sgn (X (r, κ)) · sgn (W (κ, c))`. Its terms, listed along the contracted coordinate `κ` (and zero past
  its extent), are what a blockwise accumulation adds up 1024 at a time: the whole sum is the sum of the first 4096 terms.
-/
import proofs.«105559_j59528246722736_1_alg».proof.Proof.Binarize
import proofs.«105559_j59528246722736_1_alg».proof.Proof.PartialSum
import Idealize.ShloMosaic.Lib.ValueIdx

noncomputable section

namespace Cert.Spec

open Idealize.ShloMosaic Idealize.ShloMosaic.ValueIdx Cert.Binary Cert.PartialSum

/-- Term `κ` of entry (r, c): the product of the two signs; zero past the contracted extent. -/
def term (X : (⟨2, ![8192, 4096]⟩ : Shape).Idx → EReal) (W : (⟨2, ![4096, 4096]⟩ : Shape).Idx → EReal)
    (r : Fin 8192) (c : Fin 4096) (κ : ℕ) : EReal :=
  if h : κ < 4096 then sgn (X (ix2 r ⟨κ, h⟩)) * sgn (W (ix2 ⟨κ, h⟩ c)) else 0

/-- The binarised product of `X` and `W`. -/
def G (X : (⟨2, ![8192, 4096]⟩ : Shape).Idx → EReal) (W : (⟨2, ![4096, 4096]⟩ : Shape).Idx → EReal) :
    (⟨2, ![8192, 4096]⟩ : Shape).Idx → EReal :=
  fun i => ∑ κ : Fin 4096, sgn (X (ix2 (i 0) κ)) * sgn (W (ix2 κ (i 1)))

theorem G_apply (X : (⟨2, ![8192, 4096]⟩ : Shape).Idx → EReal) (W : (⟨2, ![4096, 4096]⟩ : Shape).Idx → EReal)
    (r : Fin 8192) (c : Fin 4096) : G X W (ix2 r c) = ∑ κ : Fin 4096, sgn (X (ix2 r κ)) * sgn (W (ix2 κ c)) := rfl

/-- A term inside the contracted extent is the product of the two signs there. -/
theorem term_of_lt (X : (⟨2, ![8192, 4096]⟩ : Shape).Idx → EReal) (W : (⟨2, ![4096, 4096]⟩ : Shape).Idx → EReal)
    (r : Fin 8192) (c : Fin 4096) (κ : Fin 4096) (n : ℕ) (hn : n = κ.val) :
    term X W r c n = sgn (X (ix2 r κ)) * sgn (W (ix2 κ c)) := by
  subst hn
  unfold term
  rw [dif_pos κ.isLt]

/-- The first 4096 terms add up to the entry. -/
theorem psum_term_all (X : (⟨2, ![8192, 4096]⟩ : Shape).Idx → EReal) (W : (⟨2, ![4096, 4096]⟩ : Shape).Idx → EReal)
    (r : Fin 8192) (c : Fin 4096) : psum (term X W r c) 4096 = G X W (ix2 r c) := by
  rw [psum_eq_sum, G_apply]
  exact Finset.sum_congr rfl fun κ _ => term_of_lt X W r c κ κ.val rfl

end Cert.Spec

end
-- ==== Proof.Accumulate.lean ====
/-
  The accumulator after every grid point, as a partial sum of the product's terms.

  Fix an entry (p, q) of the accumulator tile and let (r, c) be the entry of the output array it belongs to at point
  `n`: `r = 512·(n/16) + p`, `c = 1024·(n/4%4) + q`. After the body at point `n` the accumulator's entry is the sum of
  the first `1024·(n%4 + 1)` terms `sgn (X (r, κ)) · sgn (W (κ, c))` of the array entry: a first contraction step
  stores zero plus the first block of 1024 terms, every later step adds its block to what the step before left (the row
  and column tiles do not move within a run of four steps). By induction on the point, never by listing the grid.
-/
import proofs.«105559_j59528246722736_1_alg».proof.Proof.Steps
import proofs.«105559_j59528246722736_1_alg».proof.Proof.Blocks
import proofs.«105559_j59528246722736_1_alg».proof.Proof.Payload
import proofs.«105559_j59528246722736_1_alg».proof.Proof.Spec

noncomputable section

namespace Cert.KernelIdeal.Accumulate

open Idealize.ShloMosaic Idealize.ShloMosaic.TcCoe Idealize.ShloMosaic.ValueIdx Idealize.SL.Sem
open Cert.KernelIdeal Cert.KernelIdeal.Gen Cert.KernelIdeal.Blocks Cert.KernelIdeal.Steps Cert.KernelIdeal.Payload
open Cert.Spec Cert.PartialSum Cert.Binary

variable (m : (ℓ : Loc nD τ sig) → Buf (Elt Ideal) ℓ)

/-- One update at point `t`, at (p, q): the accumulator's entry plus block `t % 4` of the array entry's terms. -/
theorem update_at (c : Dev nD) (t : Fin cfg0.N) (acc : Vec Ideal S512x1024 .f32) (p : Fin 512) (q : Fin 1024)
    (r : Fin 8192) (cc : Fin 4096) (hr : r.val = 512 * (t.val / 16) + p.val) (hc : cc.val = 1024 * (t.val / 4 % 4) + q.val) :
    k0_pay2 (F := Ideal) (xtile m c t) (wtile m c t) acc (ix2 p q)
      = (acc (ix2 p q) : EReal) + ∑ kk : Fin 1024, term (xarr m c) (warr m c) r cc (1024 * (t.val % 4) + kk.val) := by
  refine (update_apply (xtile m c t) (wtile m c t) acc p q).trans ?_
  refine congrArg (fun z : EReal => (acc (ix2 p q) : EReal) + z) (Finset.sum_congr rfl fun kk _ => ?_)
  have hκ : 1024 * (t.val % 4) + kk.val < 4096 := by have := kk.isLt; omega
  rw [xtile_apply m c t p kk r ⟨_, hκ⟩ hr rfl, wtile_apply m c t kk q ⟨_, hκ⟩ cc rfl hc]
  exact (term_of_lt _ _ r cc ⟨_, hκ⟩ _ rfl).symm

/-- THE INVARIANT: after point `n` the accumulator's entry (p, q) is the sum of the first `1024·(n%4 + 1)` terms of the
    array entry (r, c) it belongs to. -/
theorem acc_eq (c : Dev nD) : ∀ (n : ℕ) (h : n < cfg0.N) (p : Fin 512) (q : Fin 1024) (r : Fin 8192) (cc : Fin 4096),
    r.val = 512 * (n / 16) + p.val → cc.val = 1024 * (n / 4 % 4) + q.val →
    (outsAt0 m c n h).2 (ix2 p q) = psum (term (xarr m c) (warr m c) r cc) (1024 * (n % 4 + 1))
  | 0, h, p, q, r, cc, hr, hc => by
    refine (congrFun (acc_at_first m c ⟨0, h⟩ rfl (by show ¬(0 % 4 = 3); decide)) (ix2 p q)).trans ?_
    refine (update_at m c ⟨0, h⟩ (k0_pay1 (F := Ideal)) p q r cc hr hc).trans ?_
    rw [reset_apply]
    exact (psum_first _ 1024).symm
  | n + 1, h, p, q, r, cc, hr, hc => by
    have hN : n + 1 < 256 := lt_of_lt_of_eq h N_0
    by_cases h0 : (n + 1) % 4 = 0
    · have h1 : ¬(n + 1) % 4 = 3 := by omega
      refine (congrFun (acc_at_first m c ⟨n + 1, h⟩ h0 h1) (ix2 p q)).trans ?_
      refine (update_at m c ⟨n + 1, h⟩ (k0_pay1 (F := Ideal)) p q r cc hr hc).trans ?_
      rw [reset_apply]
      show (0 : EReal) + ∑ kk : Fin 1024, term (xarr m c) (warr m c) r cc (1024 * ((n + 1) % 4) + kk.val)
        = psum (term (xarr m c) (warr m c) r cc) (1024 * ((n + 1) % 4 + 1))
      rw [h0]
      exact (psum_first _ 1024).symm
    · have hacc : (outsAt0 m c (n + 1) h).2
          = k0_pay2 (F := Ideal) (xtile m c ⟨n + 1, h⟩) (wtile m c ⟨n + 1, h⟩) (outsAt0 m c n (Nat.lt_of_succ_lt h)).2 := by
        by_cases h1 : (n + 1) % 4 = 3
        · exact acc_at_last m c ⟨n + 1, h⟩ h0 h1
        · exact acc_at_middle m c ⟨n + 1, h⟩ h0 h1
      refine (congrFun hacc (ix2 p q)).trans ?_
      refine (update_at m c ⟨n + 1, h⟩ (outsAt0 m c n (Nat.lt_of_succ_lt h)).2 p q r cc hr hc).trans ?_
      rw [acc_eq c n (Nat.lt_of_succ_lt h) p q r cc (by omega) (by omega)]
      show psum (term (xarr m c) (warr m c) r cc) (1024 * (n % 4 + 1))
          + ∑ kk : Fin 1024, term (xarr m c) (warr m c) r cc (1024 * ((n + 1) % 4) + kk.val)
        = psum (term (xarr m c) (warr m c) r cc) (1024 * ((n + 1) % 4 + 1))
      have e : n % 4 + 1 = (n + 1) % 4 := by omega
      rw [e]
      exact (psum_block _ 1024 _).symm

end Cert.KernelIdeal.Accumulate

end
-- ==== Proof.KernelValue.lean ====
/-
  The kernel's result array is the binarised product of its two arguments.

  The output tile is written back at the last of each run of four contraction steps, when it holds what the accumulator
  holds: the sum of all 4096 terms of each of its entries, which is the product's entry. Those 64 tiles cover the output
  array, so the array ends holding the product of the argument arrays, and the arguments end unchanged.
-/
import proofs.«105559_j59528246722736_1_alg».proof.Proof.Accumulate
import proofs.«105559_j59528246722736_1_alg».proof.Proof.Gen.KernelIdeal.Value

noncomputable section

namespace Cert.KernelIdeal.Product

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Steps Cert.KernelIdeal.Accumulate
open Cert.Spec Cert.PartialSum

variable (m : (ℓ : Loc nD τ sig) → Buf (Elt Ideal) ℓ) (ρ : Dev nD → PrngReg)

/-- What a last contraction step writes back is its tile of the product of the arrays as the region finds them. -/
theorem flushed_eq (c : Dev nD) (t : Fin cfg0.N) (hf : (cfg0.win 2).flush t = true) :
    (dats m 0 c).flushed 2 t = ((cfg0.win 2).blk t).view.read (Elt Ideal) (G (xarr m c) (warr m c)) := by
  have h3 : t.val % 4 = 3 := (flush0_2 t).mp hf
  have h0 : ¬t.val % 4 = 0 := by omega
  have hN : t.val < 256 := lt_of_lt_of_eq t.isLt N_0
  rw [Cert.KernelIdeal.Value.flushed2, out_at_last m c t h0 h3]
  funext j
  obtain ⟨p, q, rfl⟩ : ∃ (p : Fin 512) (q : Fin 1024), j = ix2 p q := ⟨j 0, j 1, eq_ix2 j⟩
  have hr : 512 * (t.val / 16) + p.val < 8192 := by have := p.isLt; omega
  have hc : 1024 * (t.val / 4 % 4) + q.val < 4096 := by have := q.isLt; omega
  rw [View.read_apply]
  show (outsAt0 m c t.val t.isLt).2 (ix2 p q) = G (xarr m c) (warr m c) (((cfg0.win 2).blk t).view.emb (ix2 p q))
  rw [otile_emb t p q ⟨_, hr⟩ ⟨_, hc⟩ rfl rfl, acc_eq m c t.val t.isLt p q ⟨_, hr⟩ ⟨_, hc⟩ rfl rfl, h3]
  exact psum_term_all _ _ _ _

/-- So the output array ends holding the product. -/
theorem final (c : Dev nD) : (dats m 0 c).arrAt 2 cfg0.N = G (xarr m c) (warr m c) :=
  (dats m 0 c).arrAt_eq_of_cover 2 (G (xarr m c) (warr m c)) (flushed_eq m c) otiles_cover

/-- The run, read: the result at the product of the arguments as launched, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Product

end
-- ==== Proof.RefValue.lean ====
/-
  The reference's result is the binarised product of its two arguments.

  The host program binarises each argument array (compare with zero, select `1.0` or `-1.0`; the conversion to the
  same float format is the identity) and multiplies the two with one rows-by-columns product contracting all 4096
  columns of the first with the rows of the second. Read at (r, c) that product is `∑ κ < 4096` of the products of the
  two binarised entries, which is the specification's entry.
-/
import proofs.«105559_j59528246722736_1_alg».proof.Proof.Gen.ReferenceIdeal
import proofs.«105559_j59528246722736_1_alg».proof.Proof.LibDense
import proofs.«105559_j59528246722736_1_alg».proof.Proof.Binarize
import proofs.«105559_j59528246722736_1_alg».proof.Proof.Spec

noncomputable section

namespace Cert.ReferenceIdeal.Product

open Idealize.ShloMosaic Idealize.ShloMosaic.ValueIdx Cert.ReferenceIdeal Cert.Binary Cert.Spec

/-- The host product's dimension numbers are the rows-by-columns ones. -/
theorem dot_eq_plain : dot_S8192x4096_S4096x4096_S8192x4096_1_0_0_1_n_n = DotDims.plain 8192 4096 4096 := rfl

/-- The host's product of the two binarised arrays is the specification, whatever record spells the rows-by-columns
    product and whatever witnesses the broadcasts carry. -/
theorem host_product_eq (d : DotDims ⟨2, ![8192, 4096]⟩ ⟨2, ![4096, 4096]⟩ ⟨2, ![8192, 4096]⟩)
    (hd : d = DotDims.plain 8192 4096 4096) (prec : Option ContractPrecision)
    (hx : (⟨0, ![]⟩ : Shape).BroadcastsInDim ⟨2, ![8192, 4096]⟩ ![]) (hw : (⟨0, ![]⟩ : Shape).BroadcastsInDim ⟨2, ![4096, 4096]⟩ ![])
    (X : FVec Ideal ⟨2, ![8192, 4096]⟩ .f32) (W : FVec Ideal ⟨2, ![4096, 4096]⟩ .f32) :
    Host.dotGeneral d prec
        (id (select (cmpf .oge X (broadcastInDim ⟨2, ![8192, 4096]⟩ ![] hx (constant (F := Ideal) ⟨0, ![]⟩ .f32 0x00000000#32)))
          (broadcastInDim ⟨2, ![8192, 4096]⟩ ![] hx (constant (F := Ideal) ⟨0, ![]⟩ .f32 0x3F800000#32))
          (broadcastInDim ⟨2, ![8192, 4096]⟩ ![] hx (constant (F := Ideal) ⟨0, ![]⟩ .f32 0xBF800000#32))))
        (id (select (cmpf .oge W (broadcastInDim ⟨2, ![4096, 4096]⟩ ![] hw (constant (F := Ideal) ⟨0, ![]⟩ .f32 0x00000000#32)))
          (broadcastInDim ⟨2, ![4096, 4096]⟩ ![] hw (constant (F := Ideal) ⟨0, ![]⟩ .f32 0x3F800000#32))
          (broadcastInDim ⟨2, ![4096, 4096]⟩ ![] hw (constant (F := Ideal) ⟨0, ![]⟩ .f32 0xBF800000#32))))
      = G X W := by
  subst hd
  funext i
  obtain ⟨r, c, rfl⟩ : ∃ (r : Fin 8192) (c : Fin 4096), i = ix2 r c := ⟨i 0, i 1, eq_ix2 i⟩
  show FloatOps.dotGeneral (DotDims.plain 8192 4096 4096) prec .single _ _ (ix2 r c) = _
  rw [Cert.LibDense.dotGeneral_plain_apply, G_apply]
  refine Finset.sum_congr rfl fun κ _ => ?_
  show select _ _ _ (ix2 r κ) * select _ _ _ (ix2 κ c) = _
  rw [host_sign_apply, host_sign_apply]

end Cert.ReferenceIdeal.Product

end
-- ==== Proof.lean ====
/- A binary dense layer: the product of two sign-binarised matrices.

   Both programs compute, for `x` of 8192 × 4096 and `w` of 4096 × 4096 finite or infinite numbers,
   `y (r, c) = ∑ κ < 4096, sgn (x (r, κ)) · sgn (w (κ, c))`, where `sgn` is `1` on the numbers at least zero and `-1`
   elsewhere (the same three float words on both sides, never evaluated). The reference binarises the whole arrays and
   takes one product over all 4096 contracted positions. The kernel walks a 16 × 4 × 4 grid of 512 × 1024 output tiles
   and four contraction steps of 1024: it clears an accumulator tile at a first step, adds the product of the two
   binarised input tiles at every step (the narrowing to bf16 changes nothing on the extended reals, and a product
   into a zero accumulator is the plain sum), and copies the accumulator to the output tile at the last step.
   So the accumulator after step `k` holds the first `1024·(k+1)` terms of each entry's sum, and the output tile
   written back holds all 4096: the same sum, regrouped. Addition on the extended reals is associative and commutative
   without exception, so no finiteness of the inputs is used. The ideal pass rewrote nothing, so `preserves` is `True`.
   The three frames are the generated ones (the reference's: its generated run with the result dropped). -/
import proofs.«105559_j59528246722736_1_alg».proof.Defs
import proofs.«105559_j59528246722736_1_alg».proof.Proof.Gen.Kernel
import proofs.«105559_j59528246722736_1_alg».proof.Proof.Gen.Kernel.Skeleton
import proofs.«105559_j59528246722736_1_alg».proof.Proof.Gen.Kernel.Launch
import proofs.«105559_j59528246722736_1_alg».proof.Proof.Gen.Kernel.Points
import proofs.«105559_j59528246722736_1_alg».proof.Proof.Gen.Kernel.Frame
import proofs.«105559_j59528246722736_1_alg».proof.Proof.Gen.KernelIdeal
import proofs.«105559_j59528246722736_1_alg».proof.Proof.Gen.KernelIdeal.Skeleton
import proofs.«105559_j59528246722736_1_alg».proof.Proof.Gen.KernelIdeal.Launch
import proofs.«105559_j59528246722736_1_alg».proof.Proof.Gen.KernelIdeal.Points
import proofs.«105559_j59528246722736_1_alg».proof.Proof.Gen.KernelIdeal.Frame
import proofs.«105559_j59528246722736_1_alg».proof.Proof.Gen.ReferenceIdeal
import proofs.«105559_j59528246722736_1_alg».proof.Proof.Gen.Pre_finite_inputs
import proofs.«105559_j59528246722736_1_alg».proof.Proof.Gen.KernelIdeal.Value
import proofs.«105559_j59528246722736_1_alg».proof.Proof.Gen.ReferenceIdeal.Run
import proofs.«105559_j59528246722736_1_alg».proof.Proof.KernelValue
import proofs.«105559_j59528246722736_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealisation. -/
theorem frame_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the binarised product of the (agreeing) arguments in their result arrays. -/
theorem algebraic : Cert.algebraic_KernelIdeal_ReferenceIdeal := by
  intro m ρ m' ρ' _ hagree
  refine ⟨_, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Product.host_product_eq _ Cert.ReferenceIdeal.Product.dot_eq_plain none _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
